-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x4096 : Shape := ⟨2, ![4096, 4096]⟩
abbrev S1x1x512 : Shape := ⟨3, ![1, 1, 512]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x1x512 : S_.BroadcastsInDim S1x1x512 (![] : Fin 0 → Fin S1x1x512.rank)
  reducesTo_S1x1x512_S_d0_1_2 : S1x1x512.ReducesTo [0, 1, 2] S_

variable [Facts]

def fn {F : FTy → Type} [FloatOps F] (main_arg0 : FVec F S4x4096x1024 .f32) (main_arg1 : FVec F S4096x4096 .f32) (main_arg2 : FVec F S1x1x512 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x1x512 .f32 := Host.absf main_arg2
  let main_cst_2 : FVec F S_ .f32 := constant S_ .f32 0x7F800000#32
  let main_v10 : FVec F S1x1x512 .f32 := broadcastInDim S1x1x512 ![] bcast_S_S1x1x512 main_cst_2
  let main_v11 : IVec S1x1x512 1 := cmpf .olt main_v9 main_v10
  let main_c_3 : IVec S_ 1 := constantI S_ 1 1#1
  let main_v12 : IVec S_ 1 := (fun x v => Host.reduce IntOp.andi x v reducesTo_S1x1x512_S_d0_1_2 h_S_) main_v11 main_c_3
  let main_v13 : IVec S_ 1 := andi main_v8 main_v12
  main_v13
-- ==== Kernel.lean ====
abbrev S4x4096x1024 : Shape := ⟨3, ![4, 4096, 1024]⟩
abbrev S4096x4096 : Shape := ⟨2, ![4096, 4096]⟩
abbrev S1x1x512 : Shape := ⟨3, ![1, 1, 512]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩

abbrev nBuf : Space → Nat
  | .hbm => 18
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4096x4096, .f32⟩
  | .hbm, ⟨2, _⟩ => ⟨S1x1x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x512, .f32⟩
  | .hbm, ⟨14, _⟩ => ⟨S4x4096x512, .f32⟩
  | .hbm, ⟨15, _⟩ => ⟨S4x4096x512, .bf16⟩
  | .hbm, ⟨16, _⟩ => ⟨S4096x4096, .bf16⟩
  | .hbm, ⟨17, _⟩ => ⟨S4x4096x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S1x512x512, .f32⟩
  | .local _ .vmem, ⟨7, _⟩ => ⟨S1x512x512, .f32⟩
  | .local _ .vmem, ⟨8, _⟩ => ⟨S1x1x512, .f32⟩
  | .local _ .vmem, ⟨9, _⟩ => ⟨S1x512x512, .f32⟩
  | .local _ .vmem, ⟨10, _⟩ => ⟨S1x512x512, .f32⟩
  | .local _ .vmem, ⟨11, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  slices_S4x4096x1024_S4x4096x512_0_0_0 : S4x4096x1024.Slices ![0, 0, 0] S4x4096x512
  slices_S4x4096x1024_S4x4096x512_0_0_512 : S4x4096x1024.Slices ![0, 0, 512] S4x4096x512
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S512x512 : S1x512.Broadcasts S512x512
  shapeCasts_S512x512_S1x512x512 : S512x512.ShapeCasts S1x512x512
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x512.size a
  hwx0_0 : ∀ i : grid0.Coords, EltTy.bits .bf16 = 32 ∨ (Rect.block (s := S4x4096x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x512.size a
  hwx0_1 : ∀ i : grid0.Coords, EltTy.bits .bf16 = 32 ∨ (Rect.block (s := S4x4096x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x4096x512.size a
  hwx0_3 : ∀ i : grid0.Coords, EltTy.bits .f32 = 32 ∨ (Rect.block (s := S4x4096x512) S1x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S1x1x512.size a
  hwx0_4 : ∀ i : grid0.Coords, EltTy.bits .f32 = 32 ∨ (Rect.block (s := S1x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S4x4096x512.size a
  hwx0_5 : ∀ i : grid0.Coords, EltTy.bits .f32 = 32 ∨ (Rect.block (s := S4x4096x512) S1x512x512.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v10) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4096x4096 : Shape := ⟨2, ![4096, 4096]⟩
abbrev S1x1x512 : Shape := ⟨3, ![1, 1, 512]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S1x4096x4096 : Shape := ⟨3, ![1, 4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x4096, .f32⟩
  | .hbm, ⟨2, _⟩ => ⟨S1x1x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x512, .f32⟩
  | .hbm, ⟨14, _⟩ => ⟨S4x4096x512, .f32⟩
  | .hbm, ⟨15, _⟩ => ⟨S4x4096x4096, .f32⟩
  | .hbm, ⟨16, _⟩ => ⟨S1x4096x4096, .f32⟩
  | .hbm, ⟨17, _⟩ => ⟨S4x4096x4096, .f32⟩
  | .hbm, ⟨18, _⟩ => ⟨S4x4096x4096, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S_, .f32⟩
  | .hbm, ⟨25, _⟩ => ⟨S4x4096x512, .f32⟩
  | .hbm, ⟨26, _⟩ => ⟨S4x4096x512, .f32⟩
  | .hbm, ⟨27, _⟩ => ⟨S_, .f32⟩
  | .hbm, ⟨28, _⟩ => ⟨S4x4096x512, .f32⟩
  | .hbm, ⟨29, _⟩ => ⟨S4x4096x512, .f32⟩
  | .hbm, ⟨30, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  slices_S4x4096x1024_S4x4096x512_0_0_0 : S4x4096x1024.Slices ![0, 0, 0] S4x4096x512
  slices_S4x4096x1024_S4x4096x512_0_0_512 : S4x4096x1024.Slices ![0, 0, 512] S4x4096x512
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.K.Setup.lean ====
/-
  The kernel region of the printed program, set up for its run: what the core's buffers hold when the region is
  entered (the host operations before it applied to the launch memory), each window's block at a grid point, the two
  conditions of the body in closed form over the grid (the key-block coordinate is 0: the accumulator is zeroed; it is
  7: the result block is stored), where the result window is idle, and the staging and scratch memrefs the body is
  called with. The grid is 4 × 8 × 8 (batch, query block, key block), the key block the fastest axis, so the point
  `t` has key block `t % 8`.
-/
import proofs.«164405_j84679575208503_1_alg».proof.Proof.Gen.Kernel.Launch
import proofs.«164405_j84679575208503_1_alg».proof.Proof.Gen.Kernel.Skeleton
import proofs.«164405_j84679575208503_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fourteen host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (the block index has not
    moved since the last fetch), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The key-block coordinate is 0 (the accumulator is zeroed first). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The key-block coordinate is 7 (the result block is stored last). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last key block nothing is stored into the result window and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last key block the result window is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x512 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S512x512 .f32 := Memref.whole cc0_scratch0
abbrev VS0_0 : View sig .tc .vmem S512x512 .f32 := scM0_0.view
/-- One staging buffer of the result window, through which its contents are stated. -/
abbrev VO0_5 : View sig .tc .vmem S1x512x512 .f32 := (Memref.whole cc0_stg5_0 : Memref sig .tc .vmem S1x512x512 .f32).view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a point whose key block is the first and not the last: the accumulator is zeroed, then the block's
  partial product is added to it; nothing is stored into the result window. The run of the body on whole staging
  memrefs, the pieces the accumulator ends with found by the run itself.
-/
import proofs.«164405_j84679575208503_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Key block 0: from the five input blocks, the result buffer handed back untouched and the accumulator at anything,
    the body runs to the inputs as they were and the accumulator with its stored pieces written. -/
noncomputable def kernelRun0_A (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__contextualizer_kernel i arg3 harg3 arg4 harg4 arg5 harg5 arg6 harg6 arg7 harg7 arg8 harg8 arg9 harg9) K } := by
  refine ⟨[], ?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.K.RunB.lean ====
/-
  The body at a point whose key block is neither the first nor the last: the block's partial product is added to the
  accumulator the point before left; nothing is stored into the result window.
-/
import proofs.«164405_j84679575208503_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Key blocks 1 to 6: from the five input blocks, the result buffer handed back untouched and the accumulator at what
    the point before left (`xs0`), the body runs to the inputs as they were and the accumulator with its stored piece written. -/
noncomputable def kernelRun0_B (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__contextualizer_kernel i arg3 harg3 arg4 harg4 arg5 harg5 arg6 harg6 arg7 harg7 arg8 harg8 arg9 harg9) K } := by
  refine ⟨[], ?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.K.RunC.lean ====
/-
  The body at a point whose key block is the last (and not the first): the block's partial product is added to the
  accumulator, and the gated left half — the left block times the logistic of accumulator plus bias — is stored
  into the result window's staging buffer.
-/
import proofs.«164405_j84679575208503_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Key block 7: from the five input blocks, the result buffer at anything and the accumulator at what the point
    before left (`xs0`), the body runs to the inputs as they were, the result buffer and the accumulator each with its
    stored pieces written. -/
noncomputable def kernelRun0_C (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    Σ' (L5 : List (View.Piece (Elt F) S1x512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__contextualizer_kernel i arg3 harg3 arg4 harg4 arg5 harg5 arg6 harg6 arg7 harg7 arg8 harg8 arg9 harg9) K } := by
  refine ⟨?_, ?_, fun E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.K.Frame.lean ====
/-
  The kernel region's proof data and body obligation. After the body at a grid point the accumulator holds what the
  point's case leaves in it (zeroed and one partial product added at key block 0; one more partial product added over
  what the point before left at the later key blocks), and the result window's staging buffer holds the gated left
  block at key block 7; `outsAt0` states both by recursion on the point. The region's invariant carries the accumulator
  at that contents from point to point. The two windows that read the normalised array each hold half of it.
-/
import proofs.«164405_j84679575208503_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Key block 0 stores nothing into the result window: a placeholder nothing consults. -/
def out0_A_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) : Vec F S1x512x512 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Key block 0's stores cover the accumulator. -/
theorem scover0_A_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (y : S512x512.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S512x512.size (by sl_kernel_rfl) y

/-- What key block 0 leaves in the accumulator. -/
def sout0_A_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) : Vec F S512x512 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Key blocks 1 to 6 store nothing into the result window. -/
def out0_B_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S1x512x512 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

theorem scover0_B_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) (y : S512x512.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S512x512.size (by sl_kernel_rfl) y

/-- What key blocks 1 to 6 leave in the accumulator. -/
def sout0_B_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Key block 7's store covers the result window's block. -/
theorem cover0_C_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) (y : S1x512x512.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x512x512.size (by sl_kernel_rfl) y

/-- What key block 7 leaves in the result window's staging buffer. -/
def out0_C_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S1x512x512 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

theorem scover0_C_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S512x512.size (by sl_kernel_rfl) y

/-- What key block 7 leaves in the accumulator. -/
def sout0_C_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## Point by point -/

/-- What the result window's staging buffer and the accumulator hold after the body at position `n`: the case the key
    block selects, run on the point's input blocks, the accumulator taken over from the point before where the case
    reads it. -/
def outsAt0 (c : Dev nD) : (n : ℕ) → n < cfg0.N → Vec F S1x512x512 .f32 × Vec F S512x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block, the result's at `outsAt0`;
    the invariant `PhiS`; nothing owed. The normalised array is read through two windows (the query rows and the key
    rows): each holds one half of it; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; the key block says which case applies; the invariant
    hands the body the accumulator at what the point before left (at anything before the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 256 := lt_of_lt_of_eq t.isLt (show cfg0.N = 256 from N_0)
  by_cases h0 : t.val % 8 = 0
  · have h1 : ¬t.val % 8 = 7 := by omega
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

/-- Before the first point the invariant is the class's. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS0, Hg⟩
  isplitl [HS0]
  · iexists _; iexact HS0
  iexact Hg

end Cert.Kernel.Hand

end
-- ==== Proof.K.Run.lean ====
/-
  The run of the printed program: the host operations, then the kernel region launched on the proof data, to a
  state where every array of the region holds what the proof data computes and every other buffer what the region
  found. The normalised array is handed to two windows: its whole share is dealt as two halves, the query rows'
  window taking one and the key rows' the other; the pipeline only reads it.
-/
import proofs.«164405_j84679575208503_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v10) ↦{fullShare} W main_v10) ∗ (((c : Thread nD τ).loc main_v11) ↦{fullShare} W main_v11) ∗ (((c : Thread nD τ).loc main_v0) ↦{fullShare} W main_v0) ∗ (((c : Thread nD τ).loc main_arg2) ↦{fullShare} W main_arg2) ∗ (((c : Thread nD τ).loc main_v12) ↦{fullShare} W main_v12)) := by
  unfold Pipeline.arrBufs
  exact bigSep_eq_bigSepL_of_eq [main_v10, main_v11, main_v0, main_arg2, main_v12] (by decide) (by decide) _

/-- At the region's entry the buffers behind the windows' arrays, each whole at the entry contents, are the proof
    data's arrays: the normalised array split into its two halves, one per window that reads it. -/
theorem arrays_entry (c : Dev nD) :
    (Pipeline.arrBufs spec0 c (V m c) : sProp 𝕄) ⊢ (dats m 0 c).arrays ((dats m 0 c).arrAt · 0) := by
  rw [arrBufs0_eq]
  unfold Dat.arrays
  rw [bigSep_W0]
  rw [(arr_whole0 0).set_eq_univ, (arr_whole0 2).set_eq_univ, (arr_whole0 3).set_eq_univ, (arr_whole0 4).set_eq_univ, (arr_whole0 5).set_eq_univ]
  iintro ⟨H10, H11, H0, Ha2, H12⟩
  ihave Hs := (pointsTo_share (PosShare.mem_left_op_right fullShare)).1 $$ H10
  icases Hs with ⟨Hl, Hr⟩
  isplitl [Hl]; · iexact Hl
  isplitl [Hr]; · iexact Hr
  isplitl [H11]; · iexact H11
  isplitl [H0]; · iexact H0
  isplitl [Ha2]; · iexact Ha2
  iexact H12

/-- Every weakly fair execution of @main terminates; in the final state every array of the region holds what the
    proof data computes from the write-backs, and every other unscoped buffer what the region found at its entry. -/
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨(h c).1, Pipeline.rest_of_restP Pipeline.Prefetch.none spec0 (fun k => k.elim0) c (V m c) s (fun k => k.elim0) (h c).2.1 (h c).2.2⟩)

end Cert.Kernel.Hand

end
-- ==== Proof.K.Claims.lean ====
/-
  The frame of the printed program, at any float instance: the run ends with the three argument arrays as
  launched. The first two are read only by host operations before the region and bypass it; the bias row is an input
  window's array, which the pipeline never writes.
-/
import proofs.«164405_j84679575208503_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c)))⟩) (run_main m ρ)

end Cert.Kernel.Hand

end
-- ==== Proof.KI.Setup.lean ====
/-
  The kernel region of the idealized program, set up for its run: what the core's buffers hold when the region is
  entered (the host operations before it applied to the launch memory), each window's block at a grid point, the two
  conditions of the body in closed form over the grid (the key-block coordinate is 0: the accumulator is zeroed; it is
  7: the result block is stored), where the result window is idle, and the staging and scratch memrefs the body is
  called with. The grid is 4 × 8 × 8 (batch, query block, key block), the key block the fastest axis, so the point
  `t` has key block `t % 8`.
-/
import proofs.«164405_j84679575208503_1_alg».proof.Proof.Gen.KernelIdeal.Launch
import proofs.«164405_j84679575208503_1_alg».proof.Proof.Gen.KernelIdeal.Skeleton
import proofs.«164405_j84679575208503_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fourteen host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (the block index has not
    moved since the last fetch), for any proof data whose array is the entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The key-block coordinate is 0 (the accumulator is zeroed first). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The key-block coordinate is 7 (the result block is stored last). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last key block nothing is stored into the result window and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last key block the result window is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x512 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S512x512 .f32 := Memref.whole cc0_scratch0
abbrev VS0_0 : View sig .tc .vmem S512x512 .f32 := scM0_0.view
/-- One staging buffer of the result window, through which its contents are stated. -/
abbrev VO0_5 : View sig .tc .vmem S1x512x512 .f32 := (Memref.whole cc0_stg5_0 : Memref sig .tc .vmem S1x512x512 .f32).view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a point whose key block is the first and not the last: the accumulator is zeroed, then the block's
  partial product is added to it; nothing is stored into the result window. The run of the body on whole staging
  memrefs, the pieces the accumulator ends with found by the run itself.
-/
import proofs.«164405_j84679575208503_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Key block 0: from the five input blocks, the result buffer handed back untouched and the accumulator at anything,
    the body runs to the inputs as they were and the accumulator with its stored pieces written. -/
noncomputable def kernelRun0_A (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__contextualizer_kernel i arg3 harg3 arg4 harg4 arg5 harg5 arg6 harg6 arg7 harg7 arg8 harg8 arg9 harg9) K } := by
  refine ⟨[], ?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.RunB.lean ====
/-
  The body at a point whose key block is neither the first nor the last: the block's partial product is added to the
  accumulator the point before left; nothing is stored into the result window.
-/
import proofs.«164405_j84679575208503_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Key blocks 1 to 6: from the five input blocks, the result buffer handed back untouched and the accumulator at what
    the point before left (`xs0`), the body runs to the inputs as they were and the accumulator with its stored piece written. -/
noncomputable def kernelRun0_B (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__contextualizer_kernel i arg3 harg3 arg4 harg4 arg5 harg5 arg6 harg6 arg7 harg7 arg8 harg8 arg9 harg9) K } := by
  refine ⟨[], ?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.RunC.lean ====
/-
  The body at a point whose key block is the last (and not the first): the block's partial product is added to the
  accumulator, and the gated left half — the left block times the logistic of accumulator plus bias — is stored
  into the result window's staging buffer.
-/
import proofs.«164405_j84679575208503_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Key block 7: from the five input blocks, the result buffer at anything and the accumulator at what the point
    before left (`xs0`), the body runs to the inputs as they were, the result buffer and the accumulator each with its
    stored pieces written. -/
noncomputable def kernelRun0_C (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    Σ' (L5 : List (View.Piece (Elt F) S1x512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__contextualizer_kernel i arg3 harg3 arg4 harg4 arg5 harg5 arg6 harg6 arg7 harg7 arg8 harg8 arg9 harg9) K } := by
  refine ⟨?_, ?_, fun E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KI.Frame.lean ====
/-
  The kernel region's proof data and body obligation. After the body at a grid point the accumulator holds what the
  point's case leaves in it (zeroed and one partial product added at key block 0; one more partial product added over
  what the point before left at the later key blocks), and the result window's staging buffer holds the gated left
  block at key block 7; `outsAt0` states both by recursion on the point. The region's invariant carries the accumulator
  at that contents from point to point. The two windows that read the normalised array each hold half of it.
-/
import proofs.«164405_j84679575208503_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Key block 0 stores nothing into the result window: a placeholder nothing consults. -/
def out0_A_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) : Vec F S1x512x512 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Key block 0's stores cover the accumulator. -/
theorem scover0_A_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (y : S512x512.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S512x512.size (by sl_kernel_rfl) y

/-- What key block 0 leaves in the accumulator. -/
def sout0_A_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) : Vec F S512x512 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Key blocks 1 to 6 store nothing into the result window. -/
def out0_B_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S1x512x512 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

theorem scover0_B_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) (y : S512x512.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S512x512.size (by sl_kernel_rfl) y

/-- What key blocks 1 to 6 leave in the accumulator. -/
def sout0_B_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Key block 7's store covers the result window's block. -/
theorem cover0_C_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) (y : S1x512x512.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x512x512.size (by sl_kernel_rfl) y

/-- What key block 7 leaves in the result window's staging buffer. -/
def out0_C_5 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S1x512x512 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

theorem scover0_C_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S512x512.size (by sl_kernel_rfl) y

/-- What key block 7 leaves in the accumulator. -/
def sout0_C_0 (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## Point by point -/

/-- What the result window's staging buffer and the accumulator hold after the body at position `n`: the case the key
    block selects, run on the point's input blocks, the accumulator taken over from the point before where the case
    reads it. -/
def outsAt0 (c : Dev nD) : (n : ℕ) → n < cfg0.N → Vec F S1x512x512 .f32 × Vec F S512x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block, the result's at `outsAt0`;
    the invariant `PhiS`; nothing owed. The normalised array is read through two windows (the query rows and the key
    rows): each holds one half of it; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; the key block says which case applies; the invariant
    hands the body the accumulator at what the point before left (at anything before the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 256 := lt_of_lt_of_eq t.isLt (show cfg0.N = 256 from N_0)
  by_cases h0 : t.val % 8 = 0
  · have h1 : ¬t.val % 8 = 7 := by omega
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

/-- Before the first point the invariant is the class's. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS0, Hg⟩
  isplitl [HS0]
  · iexists _; iexact HS0
  iexact Hg

end Cert.KernelIdeal.Hand

end
-- ==== Proof.KI.Run.lean ====
/-
  The run of the idealized program: the host operations, then the kernel region launched on the proof data, to a
  state where every array of the region holds what the proof data computes and every other buffer what the region
  found. The normalised array is handed to two windows: its whole share is dealt as two halves, the query rows'
  window taking one and the key rows' the other; the pipeline only reads it.
-/
import proofs.«164405_j84679575208503_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v10) ↦{fullShare} W main_v10) ∗ (((c : Thread nD τ).loc main_v11) ↦{fullShare} W main_v11) ∗ (((c : Thread nD τ).loc main_v0) ↦{fullShare} W main_v0) ∗ (((c : Thread nD τ).loc main_arg2) ↦{fullShare} W main_arg2) ∗ (((c : Thread nD τ).loc main_v12) ↦{fullShare} W main_v12)) := by
  unfold Pipeline.arrBufs
  exact bigSep_eq_bigSepL_of_eq [main_v10, main_v11, main_v0, main_arg2, main_v12] (by decide) (by decide) _

/-- At the region's entry the buffers behind the windows' arrays, each whole at the entry contents, are the proof
    data's arrays: the normalised array split into its two halves, one per window that reads it. -/
theorem arrays_entry (c : Dev nD) :
    (Pipeline.arrBufs spec0 c (V m c) : sProp 𝕄) ⊢ (dats m 0 c).arrays ((dats m 0 c).arrAt · 0) := by
  rw [arrBufs0_eq]
  unfold Dat.arrays
  rw [bigSep_W0]
  rw [(arr_whole0 0).set_eq_univ, (arr_whole0 2).set_eq_univ, (arr_whole0 3).set_eq_univ, (arr_whole0 4).set_eq_univ, (arr_whole0 5).set_eq_univ]
  iintro ⟨H10, H11, H0, Ha2, H12⟩
  ihave Hs := (pointsTo_share (PosShare.mem_left_op_right fullShare)).1 $$ H10
  icases Hs with ⟨Hl, Hr⟩
  isplitl [Hl]; · iexact Hl
  isplitl [Hr]; · iexact Hr
  isplitl [H11]; · iexact H11
  isplitl [H0]; · iexact H0
  isplitl [Ha2]; · iexact Ha2
  iexact H12

/-- Every weakly fair execution of @main terminates; in the final state every array of the region holds what the
    proof data computes from the write-backs, and every other unscoped buffer what the region found at its entry. -/
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨(h c).1, Pipeline.rest_of_restP Pipeline.Prefetch.none spec0 (fun k => k.elim0) c (V m c) s (fun k => k.elim0) (h c).2.1 (h c).2.2⟩)

end Cert.KernelIdeal.Hand

end
-- ==== Proof.KI.Payload.lean ====
/-
  The body's three stored values read at an index, on the extended reals: the zero the accumulator is reset to; the
  accumulator plus the key block's partial product (the weights times the similarities, times the key rows); and the
  gated left block (the left block times the logistic of accumulator plus bias). A matrix product into a zero
  accumulator is the plain sum over the contracted axis, and a change of float format is the identity.
-/
import proofs.«164405_j84679575208503_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ### The similarity product: both operands contracted along their second axis -/

theorem lhs_sim_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_sim_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_sim_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_sim_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Rows against rows: the product contracting both second axes, into a zero accumulator, at `(q, j)` is the sum over
    `e` of `x[q,e] * y[j,e]`. -/
theorem matmul_sim_apply (x y : FVec Ideal S512x512 .bf16) (q j : Fin 512) :
    (matmul (F := Ideal) dot_S512x512_S512x512_S512x512_1_1_0_0_n_n none x y (constant (F := Ideal) S512x512 .f32 0x00000000#32)) (ix2 q j)
      = ∑ e : Fin 512, x (ix2 q e) * y (ix2 j e) := by
  refine (Ideal.matmul_constant_zero_apply dot_S512x512_S512x512_S512x512_1_1_0_0_n_n none x y (ix2 q j)).trans ?_
  rw [← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 q j) ((contrEquiv1 dot_S512x512_S512x512_S512x512_1_1_0_0_n_n 512 rfl rfl).symm k) = ix2 q k := funext fun a => Fin.ext (by
    match a with
    | ⟨0, _⟩ => exact lhs_sim_0 _ _
    | ⟨1, _⟩ => exact (lhs_sim_1 _ _).trans hk)
  have er : dot_S512x512_S512x512_S512x512_1_1_0_0_n_n.rhsIdx (ix2 q j) ((contrEquiv1 dot_S512x512_S512x512_S512x512_1_1_0_0_n_n 512 rfl rfl).symm k) = ix2 j k := funext fun a => Fin.ext (by
    match a with
    | ⟨0, _⟩ => exact rhs_sim_0 _ _
    | ⟨1, _⟩ => exact (rhs_sim_1 _ _).trans hk)
  rw [el, er]

/-! ### The mixing product: the left operand contracted along its second axis, the right along its first -/

theorem lhs_mix_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_mix_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_mix_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_mix_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Rows against columns: the plain matrix product, into a zero accumulator, at `(q, d)` is the sum over `j` of
    `x[q,j] * y[j,d]`. -/
theorem matmul_mix_apply (x y : FVec Ideal S512x512 .bf16) (q d : Fin 512) :
    (matmul (F := Ideal) dot_S512x512_S512x512_S512x512_1_0_0_1_n_n none x y (constant (F := Ideal) S512x512 .f32 0x00000000#32)) (ix2 q d)
      = ∑ j : Fin 512, x (ix2 q j) * y (ix2 j d) := by
  refine (Ideal.matmul_constant_zero_apply dot_S512x512_S512x512_S512x512_1_0_0_1_n_n none x y (ix2 q d)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 q d) ((contrEquiv1 dot_S512x512_S512x512_S512x512_1_0_0_1_n_n 512 rfl rfl).symm k) = ix2 q k := funext fun a => Fin.ext (by
    match a with
    | ⟨0, _⟩ => exact lhs_mix_0 _ _
    | ⟨1, _⟩ => exact (lhs_mix_1 _ _).trans hk)
  have er : dot_S512x512_S512x512_S512x512_1_0_0_1_n_n.rhsIdx (ix2 q d) ((contrEquiv1 dot_S512x512_S512x512_S512x512_1_0_0_1_n_n 512 rfl rfl).symm k) = ix2 k d := funext fun a => Fin.ext (by
    match a with
    | ⟨0, _⟩ => exact (rhs_mix_0 _ _).trans hk
    | ⟨1, _⟩ => exact rhs_mix_1 _ _)
  rw [el, er]

/-! ## The three stored values -/

/-- The reset value is zero everywhere. -/
theorem pay1_apply (j : S512x512.Idx) : (k0_pay1 (F := Ideal) : FVec Ideal S512x512 .f32) j = 0 := by
  unfold k0_pay1
  refine (congrFun (shapeCast_self _ _) j).trans ?_
  exact Ideal.ofBits_zero_f32

/-- The accumulated value at `(q, d)`: what the accumulator held plus, over the block's 512 keys `j`, the weight
    `v8[q,j]` times the similarity of query row `q` and key row `j`, times the key row's entry `d`. -/
theorem pay2_apply (v3 v5 : Vec Ideal S1x512x512 .bf16) (v8 : Vec Ideal S512x512 .bf16) (v14 : Vec Ideal S512x512 .f32) (q d : Fin 512) :
    (k0_pay2 (F := Ideal) v3 v5 v8 v14 : FVec Ideal S512x512 .f32) (ix2 q d)
      = v14 (ix2 q d) + ∑ j : Fin 512, (v8 (ix2 q j) * ∑ e : Fin 512, v3 (ix3 0 q e) * v5 (ix3 0 j e)) * v5 (ix3 0 j d) := by
  unfold k0_pay2
  refine (congrFun (shapeCast_self _ _) (ix2 q d)).trans ?_
  refine congrArg (v14 (ix2 q d) + ·) ?_
  refine (matmul_mix_apply _ _ q d).trans ?_
  refine Finset.sum_congr rfl fun j _ => ?_
  refine congrArg₂ (· * ·) (congrArg₂ (· * ·) (congrFun (shapeCast_self v8 _) (ix2 q j)) ?_) (shapeCast_1ab_ab_apply v5 _ j d)
  refine (matmul_sim_apply _ _ q j).trans ?_
  exact Finset.sum_congr rfl fun e _ => congrArg₂ (· * ·) (shapeCast_1ab_ab_apply v3 _ q e) (shapeCast_1ab_ab_apply v5 _ j e)

/-- The gated value at `(0, q, d)`: the left block's entry times the logistic of accumulator plus bias. -/
theorem pay3_apply (v22 : Vec Ideal S512x512 .f32) (v23 : Vec Ideal S1x1x512 .f32) (v29 : Vec Ideal S1x512x512 .f32) (q d : Fin 512) :
    (k0_pay3 (F := Ideal) v22 v23 v29 : FVec Ideal S1x512x512 .f32) (ix3 0 q d)
      = v29 (ix3 0 q d) * Ideal.logistic (v22 (ix2 q d) + v23 (ix3 0 0 d)) := by
  unfold k0_pay3
  refine (shapeCast_ab_1ab_apply _ _ 0 q d).trans ?_
  refine congrArg₂ (· * ·) (shapeCast_1ab_ab_apply v29 _ q d) ?_
  refine congrArg Ideal.logistic ?_
  refine congrArg (v22 (ix2 q d) + ·) ?_
  refine (broadcastTo_1b_ab_apply _ _ q d).trans ?_
  refine (shapeCast_a_1a_apply _ _ 0 d).trans ?_
  exact shapeCast_apply v23 _ _ _ (by
    rw [Shape.rowMajor_val_three, Shape.rowMajor_val_one]
    show (0 * 1 + 0) * 512 + d.val = d.val
    omega)

end Cert.KernelIdeal.Hand

end
-- ==== Proof.KI.Pieces.lean ====
/-
  What each case of the body leaves, as the body's stored values: at key block 0 the accumulator ends at the partial
  product added to the reset value; at the later key blocks at the partial product added to what the point before
  left; and at key block 7 the result window's buffer ends at the gated left block over that accumulator.
-/
import proofs.«164405_j84679575208503_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a store over a whole rank-2 block are all zero. -/
private theorem zeroOffsets2 : (![0, 0] : Fin 2 → Nat) = fun _ => 0 := funext fun a => by fin_cases a <;> rfl

/-- The offsets of a store over a whole rank-3 block are all zero. -/
private theorem zeroOffsets3 : (![0, 0, 0] : Fin 3 → Nat) = fun _ => 0 := funext fun a => by fin_cases a <;> rfl

/-- Key block 0: the reset value is stored over the whole accumulator, read back whole, and the partial product added
    to it is stored over the whole accumulator again; the later store is what the accumulator holds. -/
theorem sout0_A_0_eq (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) :
    sout0_A_0 c i arg3 harg3 arg4 harg4 arg5 harg5 arg6 harg6 arg7 harg7 arg8 harg8 arg9 harg9 hc0 hc1 x0 x1 x2 x3 x4 = (k0_pay2 x0 x1 x2 (k0_pay1 (F := F)) : FVec F S512x512 .f32) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) zeroOffsets2, View.readCov_unit_zero (S := S512x512) _ zeroOffsets2]
  simp only [View.readAt_eq_ld, harg3.read_unread, harg4.read_unread, harg5.read_unread, View.ld_unit_zero (S := S512x512) zeroOffsets2, View.ld_unit_zero (S := S1x512x512) zeroOffsets3]

/-- Key blocks 1 to 6: the one store over the whole accumulator is the partial product added to what the accumulator
    held, every block being read whole. -/
theorem sout0_B_0_eq (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : ¬cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    sout0_B_0 c i arg3 harg3 arg4 harg4 arg5 harg5 arg6 harg6 arg7 harg7 arg8 harg8 arg9 harg9 hc0 hc1 x0 x1 x2 x3 x4 xs0 = (k0_pay2 x0 x1 x2 xs0 : FVec F S512x512 .f32) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  try sl_unfold_words
  rw [View.canon_unit_zero (S := S512x512) zeroOffsets2]
  simp only [View.readAt_eq_ld, harg3.read_unread, harg4.read_unread, harg5.read_unread, harg9.read_unread, View.ld_unit_zero (S := S512x512) zeroOffsets2, View.ld_unit_zero (S := S1x512x512) zeroOffsets3]

/-- Key block 7 leaves the accumulator as key blocks 1 to 6 do. -/
theorem sout0_C_0_eq (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    sout0_C_0 c i arg3 harg3 arg4 harg4 arg5 harg5 arg6 harg6 arg7 harg7 arg8 harg8 arg9 harg9 hc0 hc1 x0 x1 x2 x3 x4 xs0 = (k0_pay2 x0 x1 x2 xs0 : FVec F S512x512 .f32) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero (S := S512x512) zeroOffsets2]
  simp only [View.readAt_eq_ld, harg3.read_unread, harg4.read_unread, harg5.read_unread, harg9.read_unread, View.ld_unit_zero (S := S512x512) zeroOffsets2, View.ld_unit_zero (S := S1x512x512) zeroOffsets3]

/-- Key block 7: the one store over the whole result block is the gated left block, over the accumulator read back
    whole after its update, the bias block and the left block read whole. -/
theorem out0_C_5_eq (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S1x1x512 .f32) (harg7 : arg7.IsWhole) (arg8 : Memref sig .tc .vmem S1x512x512 .f32) (harg8 : arg8.IsWhole) (arg9 : Memref sig .tc .vmem S512x512 .f32) (harg9 : arg9.IsWhole) (hc0 : ¬cond0_0 i) (hc1 : cond0_1 i)
    (x0 : Vec F S1x512x512 .bf16) (x1 : Vec F S1x512x512 .bf16) (x2 : Vec F S512x512 .bf16) (x3 : Vec F S1x512x512 .f32) (x4 : Vec F S1x1x512 .f32) (xs0 : Vec F S512x512 .f32) :
    out0_C_5 c i arg3 harg3 arg4 harg4 arg5 harg5 arg6 harg6 arg7 harg7 arg8 harg8 arg9 harg9 hc0 hc1 x0 x1 x2 x3 x4 xs0 = (k0_pay3 (k0_pay2 x0 x1 x2 xs0) x4 x3 : FVec F S1x512x512 .f32) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero (S := S1x512x512) zeroOffsets3, View.readCov_unit_zero (S := S512x512) _ zeroOffsets2]
  simp only [View.readAt_eq_ld, harg3.read_unread, harg4.read_unread, harg5.read_unread, harg6.read_unread, harg7.read_unread, harg9.read_unread, View.ld_unit_zero (S := S512x512) zeroOffsets2, View.ld_unit_zero (S := S1x512x512) zeroOffsets3, View.ld_unit_zero (S := S1x1x512) zeroOffsets3]

end Cert.KernelIdeal.Hand

end
-- ==== Proof.KI.Blocks.lean ====
/-
  The windows' blocks as parts of the arrays. The point `t` of the 4 × 8 × 8 grid (the key block fastest) has batch
  `t / 64`, query block `t / 8 % 8` and key block `t % 8`; the query window's block is rows
  `(t / 8 % 8)·512 + q` of that batch, the key window's rows `(t % 8)·512 + j`, the weight window's block the
  corresponding 512 × 512 tile, the left and result windows' the query rows again, and the bias window the whole row.
-/
import proofs.«164405_j84679575208503_1_alg».proof.Proof.KI.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The batch, the query row and the key row a point's blocks hold. -/
def batOf (t : Fin cfg0.N) : Fin 4 := ⟨t.val / 64, by have : t.val < 256 := lt_of_lt_of_eq t.isLt N_0; omega⟩
def rowOf (t : Fin cfg0.N) (q : Fin 512) : Fin 4096 := ⟨(t.val / 8 % 8) * 512 + q.val, by omega⟩
def keyOf (t : Fin cfg0.N) (j : Fin 512) : Fin 4096 := ⟨(t.val % 8) * 512 + j.val, by omega⟩

/-- The blocks and the arrays at their literal types. -/
abbrev qblk (c : Dev nD) (t : Fin cfg0.N) : Vec F S1x512x512 .bf16 := iblk m c 0 t
abbrev kblk (c : Dev nD) (t : Fin cfg0.N) : Vec F S1x512x512 .bf16 := iblk m c 1 t
abbrev vblk (c : Dev nD) (t : Fin cfg0.N) : Vec F S512x512 .bf16 := iblk m c 2 t
abbrev lblk (c : Dev nD) (t : Fin cfg0.N) : Vec F S1x512x512 .f32 := iblk m c 3 t
abbrev bblk (c : Dev nD) (t : Fin cfg0.N) : Vec F S1x1x512 .f32 := iblk m c 4 t
abbrev xnArr (c : Dev nD) : Vec F S4x4096x512 .bf16 := V m c main_v10
abbrev vArr (c : Dev nD) : Vec F S4096x4096 .bf16 := V m c main_v11
abbrev x0Arr (c : Dev nD) : Vec F S4x4096x512 .f32 := V m c main_v0
abbrev bArr (c : Dev nD) : Vec F S1x1x512 .f32 := V m c main_arg2

/-- The block indices of the six windows at the point `t`, decided over the 256 points of the grid: the query, left and
    result windows sit at `(t / 64, t / 8 % 8, 0)`, the key window at `(t / 64, t % 8, 0)`, the weight window at
    `(t / 8 % 8, t % 8)`, and the bias window at the origin. -/
theorem idxw0 : ∀ t : Fin cfg0.N, win0_0.index t (0 : Fin 3) = t.val / 64 ∧ win0_0.index t (1 : Fin 3) = t.val / 8 % 8
    ∧ win0_0.index t (2 : Fin 3) = 0 :=
  (by decide +kernel : ∀ t : Fin grid0.N, _)
theorem idxw1 : ∀ t : Fin cfg0.N, win0_1.index t (0 : Fin 3) = t.val / 64 ∧ win0_1.index t (1 : Fin 3) = t.val % 8
    ∧ win0_1.index t (2 : Fin 3) = 0 :=
  (by decide +kernel : ∀ t : Fin grid0.N, _)
theorem idxw2 : ∀ t : Fin cfg0.N, win0_2.index t (0 : Fin 2) = t.val / 8 % 8 ∧ win0_2.index t (1 : Fin 2) = t.val % 8 :=
  (by decide +kernel : ∀ t : Fin grid0.N, _)
theorem idxw3 : ∀ t : Fin cfg0.N, win0_3.index t (0 : Fin 3) = t.val / 64 ∧ win0_3.index t (1 : Fin 3) = t.val / 8 % 8
    ∧ win0_3.index t (2 : Fin 3) = 0 :=
  (by decide +kernel : ∀ t : Fin grid0.N, _)
theorem idxw4 : ∀ t : Fin cfg0.N, win0_4.index t (0 : Fin 3) = 0 ∧ win0_4.index t (1 : Fin 3) = 0
    ∧ win0_4.index t (2 : Fin 3) = 0 :=
  (by decide +kernel : ∀ t : Fin grid0.N, _)
theorem idxw5 : ∀ t : Fin cfg0.N, win0_5.index t (0 : Fin 3) = t.val / 64 ∧ win0_5.index t (1 : Fin 3) = t.val / 8 % 8
    ∧ win0_5.index t (2 : Fin 3) = 0 :=
  (by decide +kernel : ∀ t : Fin grid0.N, _)

/-- On each axis a block's element sits at the block index times the block's extent plus its own coordinate. -/
theorem qblk_apply (c : Dev nD) (t : Fin cfg0.N) (q e : Fin 512) :
    qblk m c t (ix3 0 q e) = xnArr m c (ix3 (batOf t) (rowOf t q) e) := by
  show V m c main_v10 (((cfg0.win 0).blk t).view.emb (ix3 0 q e)) = V m c main_v10 (ix3 (batOf t) (rowOf t q) e)
  obtain ⟨e0, e1, e2⟩ := idxw0 t
  refine congrArg _ (funext fun a => Fin.ext ?_)
  match a with
  | ⟨0, _⟩ => show win0_0.index t (0 : Fin 3) * 1 + 1 * 0 = t.val / 64; omega
  | ⟨1, _⟩ => show win0_0.index t (1 : Fin 3) * 512 + 1 * q.val = (t.val / 8 % 8) * 512 + q.val; omega
  | ⟨2, _⟩ => show win0_0.index t (2 : Fin 3) * 512 + 1 * e.val = e.val; omega
theorem kblk_apply (c : Dev nD) (t : Fin cfg0.N) (j e : Fin 512) :
    kblk m c t (ix3 0 j e) = xnArr m c (ix3 (batOf t) (keyOf t j) e) := by
  show V m c main_v10 (((cfg0.win 1).blk t).view.emb (ix3 0 j e)) = V m c main_v10 (ix3 (batOf t) (keyOf t j) e)
  obtain ⟨e0, e1, e2⟩ := idxw1 t
  refine congrArg _ (funext fun a => Fin.ext ?_)
  match a with
  | ⟨0, _⟩ => show win0_1.index t (0 : Fin 3) * 1 + 1 * 0 = t.val / 64; omega
  | ⟨1, _⟩ => show win0_1.index t (1 : Fin 3) * 512 + 1 * j.val = (t.val % 8) * 512 + j.val; omega
  | ⟨2, _⟩ => show win0_1.index t (2 : Fin 3) * 512 + 1 * e.val = e.val; omega
theorem vblk_apply (c : Dev nD) (t : Fin cfg0.N) (q j : Fin 512) :
    vblk m c t (ix2 q j) = vArr m c (ix2 (rowOf t q) (keyOf t j)) := by
  show V m c main_v11 (((cfg0.win 2).blk t).view.emb (ix2 q j)) = V m c main_v11 (ix2 (rowOf t q) (keyOf t j))
  obtain ⟨e0, e1⟩ := idxw2 t
  refine congrArg _ (funext fun a => Fin.ext ?_)
  match a with
  | ⟨0, _⟩ => show win0_2.index t (0 : Fin 2) * 512 + 1 * q.val = (t.val / 8 % 8) * 512 + q.val; omega
  | ⟨1, _⟩ => show win0_2.index t (1 : Fin 2) * 512 + 1 * j.val = (t.val % 8) * 512 + j.val; omega
theorem lblk_apply (c : Dev nD) (t : Fin cfg0.N) (q d : Fin 512) :
    lblk m c t (ix3 0 q d) = x0Arr m c (ix3 (batOf t) (rowOf t q) d) := by
  show V m c main_v0 (((cfg0.win 3).blk t).view.emb (ix3 0 q d)) = V m c main_v0 (ix3 (batOf t) (rowOf t q) d)
  obtain ⟨e0, e1, e2⟩ := idxw3 t
  refine congrArg _ (funext fun a => Fin.ext ?_)
  match a with
  | ⟨0, _⟩ => show win0_3.index t (0 : Fin 3) * 1 + 1 * 0 = t.val / 64; omega
  | ⟨1, _⟩ => show win0_3.index t (1 : Fin 3) * 512 + 1 * q.val = (t.val / 8 % 8) * 512 + q.val; omega
  | ⟨2, _⟩ => show win0_3.index t (2 : Fin 3) * 512 + 1 * d.val = d.val; omega
theorem bblk_apply (c : Dev nD) (t : Fin cfg0.N) (d : Fin 512) :
    bblk m c t (ix3 0 0 d) = bArr m c (ix3 0 0 d) := by
  show V m c main_arg2 (((cfg0.win 4).blk t).view.emb (ix3 0 0 d)) = V m c main_arg2 (ix3 0 0 d)
  obtain ⟨e0, e1, e2⟩ := idxw4 t
  refine congrArg _ (funext fun a => Fin.ext ?_)
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 512 + 1 * d.val = d.val; omega

/-- The result window's block at `t` sits at the query rows of `t`'s batch: its element `(0, q, d)` is the array's
    `(batOf t, rowOf t q, d)`. -/
theorem oblk_emb (t : Fin cfg0.N) (q d : Fin 512) :
    ((cfg0.win 5).blk t).view.emb (ix3 0 q d) = (ix3 (batOf t) (rowOf t q) d : S4x4096x512.Idx) := by
  obtain ⟨e0, e1, e2⟩ := idxw5 t
  refine funext fun a => Fin.ext ?_
  match a with
  | ⟨0, _⟩ => show win0_5.index t (0 : Fin 3) * 1 + 1 * 0 = t.val / 64; omega
  | ⟨1, _⟩ => show win0_5.index t (1 : Fin 3) * 512 + 1 * q.val = (t.val / 8 % 8) * 512 + q.val; omega
  | ⟨2, _⟩ => show win0_5.index t (2 : Fin 3) * 512 + 1 * d.val = d.val; omega

/-- An index of the result array is in the block of the point `t` iff each coordinate is in the block's range on its
    axis. -/
theorem mem_blk5 (t : Fin cfg0.N) (i : S4x4096x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v12).slice (win0_5.rect t)).set ↔ _
  rw [View.set_slice_whole, Rect.mem_set_unit]
  exact Iff.rfl

/-- Every entry of the result array lies in the block of a point that writes its block back (the last key block of
    the entry's batch and query block). -/
theorem out_cover (i : S4x4096x512.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 512 := (i 2).isLt
  have hlt : (i 0).val * 64 + ((i 1).val / 512) * 8 + 7 < cfg0.N := by
    show (i 0).val * 64 + ((i 1).val / 512) * 8 + 7 < grid0.N
    rw [N_0]; omega
  obtain ⟨e0, e1, e2⟩ := idxw5 ⟨_, hlt⟩
  refine ⟨⟨_, hlt⟩, (flush0_5 _).mpr ?_, ?_⟩
  · show ((i 0).val * 64 + ((i 1).val / 512) * 8 + 7) % 8 = 7; omega
  · rw [mem_blk5]
    intro a
    have e0' : win0_5.index ⟨_, hlt⟩ (0 : Fin 3) = ((i 0).val * 64 + ((i 1).val / 512) * 8 + 7) / 64 := e0
    have e1' : win0_5.index ⟨_, hlt⟩ (1 : Fin 3) = ((i 0).val * 64 + ((i 1).val / 512) * 8 + 7) / 8 % 8 := e1
    match a with
    | ⟨0, _⟩ =>
      show win0_5.index ⟨_, hlt⟩ (0 : Fin 3) * 1 ≤ (i 0).val ∧ (i 0).val < win0_5.index ⟨_, hlt⟩ (0 : Fin 3) * 1 + 1
      omega
    | ⟨1, _⟩ =>
      show win0_5.index ⟨_, hlt⟩ (1 : Fin 3) * 512 ≤ (i 1).val ∧ (i 1).val < win0_5.index ⟨_, hlt⟩ (1 : Fin 3) * 512 + 512
      omega
    | ⟨2, _⟩ =>
      show win0_5.index ⟨_, hlt⟩ (2 : Fin 3) * 512 ≤ (i 2).val ∧ (i 2).val < win0_5.index ⟨_, hlt⟩ (2 : Fin 3) * 512 + 512
      omega

end Cert.KernelIdeal.Hand

end
-- ==== Proof.Spec.lean ====
/-
  What both programs compute, index by index, on the extended reals.

  With `xn` the row-normalised right half of the input (one shared chain of host operations on both sides, carried
  here as an arbitrary array), `v` the weight matrix, `x0` the left half and `bias` the bias row:

      sim b q k   = ∑ e, xn[b,q,e] · xn[b,k,e]                     (cosine similarity of rows q and k of batch b)
      term k      = (v[q,k] · sim b q k) · xn[b,k,d]               (key k's contribution to context entry (b,q,d))
      ctx b q d   = ∑ k : Fin 4096, term k
      out[b,q,d]  = x0[b,q,d] · logistic (ctx b q d + bias[0,0,d])

  The reference sums the 4096 keys at once. The kernel walks the keys in 8 blocks of 512, adding each block's partial
  sum to an accumulator it zeroes at the first block: `acc 0 = 0 + part 0`, `acc (n+1) = acc n + part (n+1)`.
  Addition of extended reals is commutative and associative and `0` is neutral, so `acc 7 = ctx` (`acc_seven`):
  regrouping a finite sum needs no finiteness of the summands.
-/
import Idealize.ShloMosaic.PureOps.Ideal
import Idealize.ShloMosaic.Lib.ValueIdx
import Mathlib.Algebra.BigOperators.Fin
import Mathlib.Algebra.BigOperators.Intervals

noncomputable section

open scoped BigOperators

namespace Cert.Spec

open Idealize.ShloMosaic Idealize.ShloMosaic.ValueIdx

/-- The array types, over literal extents. -/
abbrev AX := (⟨3, ![4, 4096, 512]⟩ : Shape).Idx → EReal
abbrev AV := (⟨2, ![4096, 4096]⟩ : Shape).Idx → EReal
abbrev AB := (⟨3, ![1, 1, 512]⟩ : Shape).Idx → EReal

/-- Cosine similarity of rows `q` and `k` of batch `b`. -/
def sim (xn : AX) (b : Fin 4) (q k : Fin 4096) : EReal :=
  ∑ e : Fin 512, xn (ix3 b q e) * xn (ix3 b k e)

/-- Key `k`'s contribution to the context entry `(b, q, d)`. -/
def term (xn : AX) (v : AV) (b : Fin 4) (q : Fin 4096) (d : Fin 512) (k : Fin 4096) : EReal :=
  (v (ix2 q k) * sim xn b q k) * xn (ix3 b k d)

/-- The context entry: all 4096 keys at once. -/
def ctx (xn : AX) (v : AV) (b : Fin 4) (q : Fin 4096) (d : Fin 512) : EReal :=
  ∑ k : Fin 4096, term xn v b q d k

/-- Key `j` of key block `kb`. -/
def key (kb : Fin 8) (j : Fin 512) : Fin 4096 := ⟨kb.val * 512 + j.val, by omega⟩

/-- Key block `kb`'s partial sum. -/
def part (xn : AX) (v : AV) (b : Fin 4) (q : Fin 4096) (d : Fin 512) (kb : Fin 8) : EReal :=
  ∑ j : Fin 512, term xn v b q d (key kb j)

/-- The same at a natural number (zero past the last block). -/
def partN (xn : AX) (v : AV) (b : Fin 4) (q : Fin 4096) (d : Fin 512) (n : ℕ) : EReal :=
  if h : n < 8 then part xn v b q d ⟨n, h⟩ else 0

/-- The accumulator after key block `n`: zero plus the first block's partial sum, then one block added at a time. -/
def acc (xn : AX) (v : AV) (b : Fin 4) (q : Fin 4096) (d : Fin 512) : ℕ → EReal
  | 0 => 0 + partN xn v b q d 0
  | n + 1 => acc xn v b q d n + partN xn v b q d (n + 1)

/-- The result entry. -/
def outAt (x0 xn : AX) (v : AV) (bias : AB) (b : Fin 4) (q : Fin 4096) (d : Fin 512) : EReal :=
  x0 (ix3 b q d) * Ideal.logistic (ctx xn v b q d + bias (ix3 0 0 d))

/-- The result array. -/
def out (x0 xn : AX) (v : AV) (bias : AB) : AX := fun i => outAt x0 xn v bias (i 0) (i 1) (i 2)

theorem out_ix3 (x0 xn : AX) (v : AV) (bias : AB) (b : Fin 4) (q : Fin 4096) (d : Fin 512) :
    out x0 xn v bias (ix3 b q d) = outAt x0 xn v bias b q d := rfl

/-- The accumulator is the sum of the blocks so far. -/
theorem acc_eq_sum (xn : AX) (v : AV) (b : Fin 4) (q : Fin 4096) (d : Fin 512) (n : ℕ) :
    acc xn v b q d n = ∑ i ∈ Finset.range (n + 1), partN xn v b q d i := by
  induction n with
  | zero => simp [acc]
  | succ n ih => rw [acc, ih, Finset.sum_range_succ _ (n + 1)]

/-- The 4096 keys are the 8 blocks of 512. -/
theorem sum_keys (f : Fin 4096 → EReal) : ∑ k : Fin 4096, f k = ∑ kb : Fin 8, ∑ j : Fin 512, f (key kb j) := by
  rw [← Fintype.sum_prod_type', ← Equiv.sum_comp (finProdFinEquiv (m := 8) (n := 512))]
  refine Finset.sum_congr rfl fun p _ => congrArg f (Fin.ext ?_)
  simp only [finProdFinEquiv_apply_val, key]
  omega

/-- After the last block the accumulator is the whole context entry. -/
theorem acc_seven (xn : AX) (v : AV) (b : Fin 4) (q : Fin 4096) (d : Fin 512) :
    acc xn v b q d 7 = ctx xn v b q d := by
  rw [acc_eq_sum, ctx, sum_keys, Finset.sum_range, ]
  refine Finset.sum_congr rfl fun kb _ => ?_
  rw [partN, dif_pos kb.isLt]
  rfl

end Cert.Spec

end
-- ==== Proof.KI.Value.lean ====
/-
  The value of the idealized kernel's result array: the specification's `out` of the arrays the region finds.

  At a point of batch `b`, query block `qi` and key block `ki` the body adds to the accumulator entry `(q, d)` the sum
  over the block's keys of (weight · similarity) · key entry, which is the specification's partial sum `part` of key
  block `ki` for the query row `qi·512 + q`; so by induction along the eight key blocks (the batch and query block
  do not change inside such a run of points) the accumulator after key block `ki` is the specification's `acc … ki`,
  zero-initialised at `ki = 0`. At `ki = 7` the stored block is the left block times the logistic of accumulator plus
  bias, and `acc … 7` is the whole context entry: the block of `out`. These blocks tile the result array.
-/
import proofs.«164405_j84679575208503_1_alg».proof.Proof.KI.Run
import proofs.«164405_j84679575208503_1_alg».proof.Proof.KI.Payload
import proofs.«164405_j84679575208503_1_alg».proof.Proof.KI.Pieces
import proofs.«164405_j84679575208503_1_alg».proof.Proof.KI.Blocks
import proofs.«164405_j84679575208503_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx
open scoped BigOperators

/-- The arrays the region finds, as the specification's arguments. -/
abbrev xnS (c : Dev nD) : Cert.Spec.AX := xnArr m c
abbrev vS (c : Dev nD) : Cert.Spec.AV := vArr m c
abbrev x0S (c : Dev nD) : Cert.Spec.AX := x0Arr m c
abbrev bS (c : Dev nD) : Cert.Spec.AB := bArr m c

/-- The key-block coordinate of a point. -/
def kbOf (t : Fin cfg0.N) : Fin 8 := ⟨t.val % 8, Nat.mod_lt _ (by decide)⟩

theorem keyOf_eq (t : Fin cfg0.N) (j : Fin 512) : keyOf t j = Cert.Spec.key (kbOf t) j := rfl

/-- One point's update of an accumulator entry: what it held plus the specification's partial sum of the point's key
    block, for the point's batch and query row. -/
theorem update_apply (c : Dev nD) (t : Fin cfg0.N) (prev : Vec Ideal S512x512 .f32) (q d : Fin 512) :
    (k0_pay2 (F := Ideal) (qblk m c t) (kblk m c t) (vblk m c t) prev : FVec Ideal S512x512 .f32) (ix2 q d)
      = prev (ix2 q d) + Cert.Spec.part (xnS m c) (vS m c) (batOf t) (rowOf t q) d (kbOf t) := by
  rw [pay2_apply]
  refine congrArg (prev (ix2 q d) + ·) ?_
  unfold Cert.Spec.part Cert.Spec.term Cert.Spec.sim
  refine Finset.sum_congr rfl fun j _ => ?_
  rw [vblk_apply, kblk_apply, ← keyOf_eq]
  refine congrArg (fun s => (vArr m c (ix2 (rowOf t q) (keyOf t j)) * s) * xnArr m c (ix3 (batOf t) (keyOf t j) d)) ?_
  refine Finset.sum_congr rfl fun e _ => ?_
  rw [qblk_apply, kblk_apply]

/-- The specification's partial sum at a point's key-block number. -/
theorem partN_kb (c : Dev nD) (t : Fin cfg0.N) (b : Fin 4) (r : Fin 4096) (d : Fin 512) :
    Cert.Spec.partN (xnS m c) (vS m c) b r d (t.val % 8) = Cert.Spec.part (xnS m c) (vS m c) b r d (kbOf t) := by
  unfold Cert.Spec.partN
  rw [dif_pos (Nat.mod_lt _ (by decide))]
  rfl

/-- Inside a run of eight key blocks the batch and the query rows do not change. -/
theorem batOf_pred (t : Fin cfg0.N) (h0 : ¬t.val % 8 = 0) :
    batOf ⟨t.val - 1, Nat.lt_of_le_of_lt (Nat.sub_le _ _) t.isLt⟩ = batOf t := by
  apply Fin.ext; show (t.val - 1) / 64 = t.val / 64; omega
theorem rowOf_pred (t : Fin cfg0.N) (h0 : ¬t.val % 8 = 0) (q : Fin 512) :
    rowOf ⟨t.val - 1, Nat.lt_of_le_of_lt (Nat.sub_le _ _) t.isLt⟩ q = rowOf t q := by
  apply Fin.ext; show (t.val - 1) / 8 % 8 * 512 + q.val = t.val / 8 % 8 * 512 + q.val; omega

/-- THE ACCUMULATOR after the body at point `t`, entry by entry: the specification's accumulator after the point's key
    block, for the point's batch and query row. By induction along the points: key block 0 starts from the reset
    value zero, a later key block from what the point before left. -/
theorem acc_at_aux (c : Dev nD) : ∀ (n : ℕ) (t : Fin cfg0.N), t.val = n → ∀ (q d : Fin 512),
    (outsAt0 m c t.val t.isLt).2 (ix2 q d)
      = Cert.Spec.acc (xnS m c) (vS m c) (batOf t) (rowOf t q) d (t.val % 8) := by
  intro n
  induction n using Nat.strong_induction_on with
  | _ n ih =>
    intro t hn q d
    subst hn
    by_cases h0 : t.val % 8 = 0
    · have h1 : ¬t.val % 8 = 7 := by omega
      rw [outsAt0_A m c t h0 h1]; dsimp only
      refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 q d)).trans ?_
      refine (update_apply m c t (k0_pay1 (F := Ideal)) q d).trans ?_
      rw [pay1_apply, ← partN_kb, h0]
      rfl
    · have hlt : t.val - 1 < t.val := by omega
      have ih' := ih (t.val - 1) hlt ⟨t.val - 1, Nat.lt_of_le_of_lt (Nat.sub_le _ _) t.isLt⟩ rfl q d
      rw [batOf_pred t h0, rowOf_pred t h0 q] at ih'
      have hk : t.val % 8 = (t.val - 1) % 8 + 1 := by omega
      have hstep : Cert.Spec.acc (xnS m c) (vS m c) (batOf t) (rowOf t q) d (t.val % 8)
          = Cert.Spec.acc (xnS m c) (vS m c) (batOf t) (rowOf t q) d ((t.val - 1) % 8)
            + Cert.Spec.part (xnS m c) (vS m c) (batOf t) (rowOf t q) d (kbOf t) := by
        rw [← partN_kb, hk]; rfl
      rw [hstep, ← ih']
      by_cases h1 : t.val % 8 = 7
      · rw [outsAt0_C m c t h0 h1]; dsimp only
        refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 q d)).trans ?_
        exact update_apply m c t _ q d
      · rw [outsAt0_B m c t h0 h1]; dsimp only
        refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 q d)).trans ?_
        exact update_apply m c t _ q d

theorem acc_at (c : Dev nD) (t : Fin cfg0.N) (q d : Fin 512) :
    (outsAt0 m c t.val t.isLt).2 (ix2 q d)
      = Cert.Spec.acc (xnS m c) (vS m c) (batOf t) (rowOf t q) d (t.val % 8) :=
  acc_at_aux m c t.val t rfl q d

/-- The result array, as the specification states it. -/
abbrev outS (c : Dev nD) : S4x4096x512.Idx → EReal := Cert.Spec.out (x0S m c) (xnS m c) (vS m c) (bS m c)

/-- THE RESULT BLOCK stored at the last key block, entry by entry: the specification's `out` at the block's place. -/
theorem out_at (c : Dev nD) (t : Fin cfg0.N) (h1 : t.val % 8 = 7) (q d : Fin 512) :
    (outsAt0 m c t.val t.isLt).1 (ix3 0 q d) = outS m c (ix3 (batOf t) (rowOf t q) d) := by
  have h0 : ¬t.val % 8 = 0 := by omega
  have hacc := acc_at m c t q d
  rw [outsAt0_C m c t h0 h1] at hacc ⊢; dsimp only at hacc ⊢
  have e2 := (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 q d)).symm.trans hacc
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix3 0 q d)).trans ?_
  refine (pay3_apply (k0_pay2 (F := Ideal) (qblk m c t) (kblk m c t) (vblk m c t) (outsAt0 m c (t.val - 1) (Nat.lt_of_le_of_lt (Nat.sub_le _ _) t.isLt)).2) (bblk m c t) (lblk m c t) q d).trans ?_
  rw [e2, h1, Cert.Spec.acc_seven, lblk_apply, bblk_apply]
  rfl

/-- What a writing point writes back is its block of the specification's `out`. -/
theorem flushed_eq (c : Dev nD) (t : Fin cfg0.N) (hf : (cfg0.win 5).flush t = true) :
    (dats m 0 c).flushed 5 t = ((cfg0.win 5).blk t).view.read (Elt Ideal) (outS m c) := by
  have h1 : t.val % 8 = 7 := (flush0_5 t).mp hf
  show (cfg0.win 5).cut (grid0.coords t) ((dats m 0 c).after 5 t) = _
  rw [after0_5]
  funext y
  obtain ⟨z, q, d, rfl⟩ : ∃ (z : Fin 1) (q d : Fin 512), y = ix3 z q d := ⟨y 0, y 1, y 2, eq_ix3 y⟩
  obtain rfl : z = 0 := Subsingleton.elim _ _
  show (outsAt0 m c t.val t.isLt).1 (ix3 0 q d) = outS m c (((cfg0.win 5).blk t).view.emb (ix3 0 q d))
  rw [oblk_emb]
  exact out_at m c t h1 q d

/-- THE RESULT ARRAY after the run is the specification's `out` of the arrays the region found. -/
theorem final5 (c : Dev nD) : (dats m 0 c).arrAt 5 cfg0.N = outS m c :=
  (dats m 0 c).arrAt_eq_of_cover 5 (outS m c) (fun t hf => flushed_eq m c t hf) out_cover

end Cert.KernelIdeal.Hand

end
-- ==== Proof.KI.Entry.lean ====
/-
  What the region finds in the arrays the host operations wrote, at the extended reals: the left half of the input;
  the right half divided, row by row, by the larger of its Euclidean norm and the small constant (one chain of ten
  host operations, kept as one function `xnOf`); and the weight matrix. The two changes of float format before the
  region are the identity on the extended reals.
-/
import proofs.«164405_j84679575208503_1_alg».proof.Proof.KI.Setup
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx
open scoped BigOperators

/-- The left half of the input. -/
def x0Of (x : FVec Ideal S4x4096x1024 .f32) : FVec Ideal S4x4096x512 .f32 :=
  extractStridedSlice S4x4096x512 ![0, 0, 0] x slices_S4x4096x1024_S4x4096x512_0_0_0

/-- The normalised right half: each row divided by the larger of its norm and the constant. -/
def xnOf (x : FVec Ideal S4x4096x1024 .f32) : FVec Ideal S4x4096x512 .f32 :=
  Host.divf (F := Ideal)
    (extractStridedSlice S4x4096x512 ![0, 0, 512] x slices_S4x4096x1024_S4x4096x512_0_0_512)
    (broadcastInDim S4x4096x512 ![0, 1, 2] bcast_S4x4096x1_S4x4096x512_0_1_2
      (maximumf
        (Host.sqrt (F := Ideal)
          (broadcastInDim S4x4096x1 ![0, 1] bcast_S4x4096_S4x4096x1_0_1
            (Host.reduceAdd (F := Ideal)
              (mulf (extractStridedSlice S4x4096x512 ![0, 0, 512] x slices_S4x4096x1024_S4x4096x512_0_0_512)
                (extractStridedSlice S4x4096x512 ![0, 0, 512] x slices_S4x4096x1024_S4x4096x512_0_0_512))
              (constant (F := Ideal) S_ .f32 0x00000000#32) reducesTo_S4x4096x512_S4x4096_d2 h_S_)))
        (broadcastInDim S4x4096x1 ![] bcast_S_S4x4096x1 (constant (F := Ideal) S_ .f32 0x2B8CBCCC#32))))

theorem V_v0 (c : Dev nD) : (V m c main_v0 : S4x4096x512.Idx → EReal) = x0Of (m ((c : Thread nD τ).loc main_arg0)) := by
  dsimp only [V, hostOps0]; after_results; rfl

theorem V_v10 (c : Dev nD) : (V m c main_v10 : S4x4096x512.Idx → EReal) = xnOf (m ((c : Thread nD τ).loc main_arg0)) := by
  dsimp only [V, hostOps0]; after_results; rfl

theorem V_v11 (c : Dev nD) : (V m c main_v11 : S4096x4096.Idx → EReal) = m ((c : Thread nD τ).loc main_arg1) := by
  dsimp only [V, hostOps0]; after_results; rfl

end Cert.KernelIdeal.Hand

end
-- ==== Proof.KI.Claims.lean ====
/-
  The frame of the idealized program, at any float instance: the run ends with the three argument arrays as
  launched. The first two are read only by host operations before the region and bypass it; the bias row is an input
  window's array, which the pipeline never writes.
-/
import proofs.«164405_j84679575208503_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c)))⟩) (run_main m ρ)

end Cert.KernelIdeal.Hand

end
-- ==== Proof.KI.Result.lean ====
/-
  The idealized kernel's run with its result named: every weakly fair execution of the program terminates with the
  result array at the specification's `out` of the left half, the normalised right half, the weights and the bias, all
  read off the launch memory, and with the three argument arrays unchanged.
-/
import proofs.«164405_j84679575208503_1_alg».proof.Proof.KI.Value
import proofs.«164405_j84679575208503_1_alg».proof.Proof.KI.Entry
import proofs.«164405_j84679575208503_1_alg».proof.Proof.KI.Claims

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx
open scoped BigOperators

/-- The specification's result of the launch memory's arrays. -/
def resultOf (c : Dev nD) : S4x4096x512.Idx → EReal :=
  Cert.Spec.out (x0Of (m ((c : Thread nD τ).loc main_arg0))) (xnOf (m ((c : Thread nD τ).loc main_arg0)))
    (m ((c : Thread nD τ).loc main_arg1)) (m ((c : Thread nD τ).loc main_arg2))

/-- The arrays the region finds are those functions of the launch memory. -/
theorem outS_eq (c : Dev nD) : outS m c = resultOf m c :=
  show Cert.Spec.out (x0S m c) (xnS m c) (vS m c) (bS m c)
      = Cert.Spec.out (x0Of (m ((c : Thread nD τ).loc main_arg0))) (xnOf (m ((c : Thread nD τ).loc main_arg0)))
          (m ((c : Thread nD τ).loc main_arg1)) (m ((c : Thread nD τ).loc main_arg2)) from
    congr (congr (congr (congrArg Cert.Spec.out (V_v0 m c)) (V_v10 m c)) (V_v11 m c)) (V_main_arg2 m c)

theorem run_value : θ_run defs (onTc (τ := τ) (main (F := Ideal))) ⟨m, fun _ => 0, ρ⟩ (fun r => ∀ c : Dev nD,
      r.2.mem ((c.tc : Thread nD τ).loc main_v12) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).1 5).trans (final5 m c)).trans (outS_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c)))⟩) (run_main m ρ)

end Cert.KernelIdeal.Hand

end
-- ==== Proof.Ref.Value.lean ====
/-
  The reference's result, index by index: its run read back one operation at a time is the specification's `out`.

  The reference takes the left half `x0` of the input (operation %0) and the row-normalised right half `xn`
  (operations %1 to %9: the right half divided by the larger of its rows' Euclidean norm and a small constant). From
  there on every operation reads at an index: the first contraction is the cosine similarity `∑ e, xn[b,q,e] · xn[b,k,e]`,
  the product with the broadcast weights is `v[q,k] · sim b q k`, the second contraction sums
  `(v[q,k] · sim b q k) · xn[b,k,d]` over the 4096 keys, the bias row is added, and `1 / (1 + exp (-y))` is the logistic
  function of the extended reals; the last product is with `x0[b,q,d]`.
-/
import proofs.«164405_j84679575208503_1_alg».proof.Proof.Gen.ReferenceIdeal.Run
import proofs.«164405_j84679575208503_1_alg».proof.Proof.Gen.ReferenceIdeal.Read
import proofs.«164405_j84679575208503_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## The two halves of the input -/

/-- The left half of the input: columns `0 … 511` of every row (operation %0). -/
def x0Of (x : FVec Ideal S4x4096x1024 .f32) : FVec Ideal S4x4096x512 .f32 :=
  extractStridedSlice S4x4096x512 ![0, 0, 0] x slices_S4x4096x1024_S4x4096x512_0_0_0

/-- The normalised right half of the input (operations %1 to %9): columns `512 … 1023` of every row, divided by the
    larger of the row's Euclidean norm (the square root of the sum of its squares) and the constant `0x2B8CBCCC`. -/
def xnOf (x : FVec Ideal S4x4096x1024 .f32) : FVec Ideal S4x4096x512 .f32 :=
  Host.divf (F := Ideal)
    (extractStridedSlice S4x4096x512 ![0, 0, 512] x slices_S4x4096x1024_S4x4096x512_0_0_512)
    (broadcastInDim S4x4096x512 ![0, 1, 2] bcast_S4x4096x1_S4x4096x512_0_1_2
      (maximumf
        (Host.sqrt (F := Ideal)
          (broadcastInDim S4x4096x1 ![0, 1] bcast_S4x4096_S4x4096x1_0_1
            (Host.reduceAdd (F := Ideal)
              (mulf (extractStridedSlice S4x4096x512 ![0, 0, 512] x slices_S4x4096x1024_S4x4096x512_0_0_512)
                (extractStridedSlice S4x4096x512 ![0, 0, 512] x slices_S4x4096x1024_S4x4096x512_0_0_512))
              (constant (F := Ideal) S_ .f32 0x00000000#32) reducesTo_S4x4096x512_S4x4096_d2 h_S_)))
        (broadcastInDim S4x4096x1 ![] bcast_S_S4x4096x1 (constant (F := Ideal) S_ .f32 0x2B8CBCCC#32))))

/-- The left half is the stage of operation %0. -/
theorem x0Of_eq (x : FVec Ideal S4x4096x1024 .f32) : x0Of x = val_main_v0 (F := Ideal) x := rfl

/-- The normalised right half is the stage of operation %9. -/
theorem xnOf_eq (x : FVec Ideal S4x4096x1024 .f32) : xnOf x = val_main_v9 (F := Ideal) x := rfl

/-! ## Index equations: the operations' operand indices, by coordinates -/

/-- The bias row is read at `(0, 0, d)`. -/
theorem idx_bias (b : Fin 4) (q : Fin 4096) (d : Fin 512) : idx_main_v15 (ix3 b q d) = ix3 0 0 d :=
  funext fun a => Fin.ext (by match a with | ⟨0, _⟩ => rfl | ⟨1, _⟩ => rfl | ⟨2, _⟩ => rfl)

/-- The second contraction reads its right operand at `(b, k, d)`. -/
theorem ridx_ctx (b : Fin 4) (q : Fin 4096) (d : Fin 512) (k : Fin 4096) : ridx_main_v14 (ix3 b q d) k = ix3 b k d :=
  funext fun a => Fin.ext (by match a with | ⟨0, _⟩ => rfl | ⟨1, _⟩ => rfl | ⟨2, _⟩ => rfl)

/-- The second contraction reads its left operand at `(b, q, k)`. -/
theorem lidx_ctx (b : Fin 4) (q : Fin 4096) (d : Fin 512) (k : Fin 4096) : lidx_main_v14 (ix3 b q d) k = ix3 b q k :=
  funext fun a => Fin.ext (by match a with | ⟨0, _⟩ => rfl | ⟨1, _⟩ => rfl | ⟨2, _⟩ => rfl)

/-- The twice-broadcast weights at `(b, q, k)` are the weight matrix at `(q, k)`. -/
theorem idx_v (b : Fin 4) (q k : Fin 4096) : idx_main_v11 (idx_main_v12 (ix3 b q k)) = ix2 q k :=
  funext fun a => Fin.ext (by match a with | ⟨0, _⟩ => rfl | ⟨1, _⟩ => rfl)

/-- The first contraction reads its left operand at `(b, q, e)`. -/
theorem lidx_sim (b : Fin 4) (q k : Fin 4096) (e : Fin 512) : lidx_main_v10 (ix3 b q k) e = ix3 b q e :=
  funext fun a => Fin.ext (by match a with | ⟨0, _⟩ => rfl | ⟨1, _⟩ => rfl | ⟨2, _⟩ => rfl)

/-- The first contraction reads its right operand at `(b, k, e)`. -/
theorem ridx_sim (b : Fin 4) (q k : Fin 4096) (e : Fin 512) : ridx_main_v10 (ix3 b q k) e = ix3 b k e :=
  funext fun a => Fin.ext (by match a with | ⟨0, _⟩ => rfl | ⟨1, _⟩ => rfl | ⟨2, _⟩ => rfl)

/-! ## The stages at an index -/

/-- The first contraction at `(b, q, k)` is the cosine similarity of rows `q` and `k` of batch `b`. -/
theorem sim_apply (x : FVec Ideal S4x4096x1024 .f32) (b : Fin 4) (q k : Fin 4096) :
    val_main_v10 (F := Ideal) x (ix3 b q k) = Cert.Spec.sim (xnOf x) b q k := by
  rw [val_main_v10_apply, Cert.Spec.sim, xnOf_eq]
  refine Finset.sum_congr rfl fun e _ => ?_
  rw [lidx_sim, ridx_sim]

/-- The weighted similarity at `(b, q, k)`. -/
theorem weighted_apply (x : FVec Ideal S4x4096x1024 .f32) (v : FVec Ideal S4096x4096 .f32) (b : Fin 4) (q k : Fin 4096) :
    val_main_v13 (F := Ideal) x v (ix3 b q k) = v (ix2 q k) * Cert.Spec.sim (xnOf x) b q k := by
  rw [val_main_v13_apply, val_main_v12_apply, val_main_v11_apply, idx_v, sim_apply]
  rfl

/-- The second contraction at `(b, q, d)` is the context entry: the sum over all 4096 keys. -/
theorem ctx_apply (x : FVec Ideal S4x4096x1024 .f32) (v : FVec Ideal S4096x4096 .f32) (b : Fin 4) (q : Fin 4096) (d : Fin 512) :
    val_main_v14 (F := Ideal) x v (ix3 b q d) = Cert.Spec.ctx (xnOf x) v b q d := by
  rw [val_main_v14_apply, Cert.Spec.ctx]
  refine Finset.sum_congr rfl fun k _ => ?_
  rw [lidx_ctx, ridx_ctx, weighted_apply, Cert.Spec.term, xnOf_eq]

/-- The constant `1.0` broadcast, at an index. -/
theorem one_apply_19 (i : S4x4096x512.Idx) : val_main_v19 (F := Ideal) i = 1 := by
  rw [val_main_v19_apply, val_main_cst_1_apply, Ideal.ofBits_def, Ideal.ofBits_one_f32]

/-- The same constant's second copy, at an index. -/
theorem one_apply_21 (i : S4x4096x512.Idx) : val_main_v21 (F := Ideal) i = 1 := by
  rw [val_main_v21_apply, val_main_cst_2_apply, Ideal.ofBits_def, Ideal.ofBits_one_f32]

/-! ## The result -/

/-- The reference's result array is the specification's `out` of the two halves of the input, the weights and the
    bias: at `(b, q, d)` the left half's entry times the logistic function of the context entry plus the bias. -/
theorem result_eq (x : FVec Ideal S4x4096x1024 .f32) (v : FVec Ideal S4096x4096 .f32) (bias : FVec Ideal S1x1x512 .f32) :
    val_main_v23 (F := Ideal) x v bias = Cert.Spec.out (x0Of x) (xnOf x) v bias := by
  funext i
  obtain ⟨b, q, d, rfl⟩ : ∃ (b : Fin 4) (q : Fin 4096) (d : Fin 512), i = ix3 b q d := ⟨i 0, i 1, i 2, eq_ix3 i⟩
  rw [Cert.Spec.out_ix3, Cert.Spec.outAt, val_main_v23_apply, val_main_v22_apply, one_apply_21, val_main_v20_apply,
    one_apply_19, val_main_v18_apply, val_main_v17_apply, val_main_v16_apply, val_main_v15_apply, idx_bias, ctx_apply,
    x0Of_eq]
  rfl

/-! ## The run -/

/-- Every weakly fair execution of the reference from a memory `m'` with zero counters terminates with the result
    buffer at the specification's `out` of the two halves of the first argument, the weights and the bias as `m'` holds
    them, and with the three arguments unchanged. -/
theorem run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v23)
          = Cert.Spec.out (x0Of (m' ((c.tc : Thread nD τ).loc main_arg0))) (xnOf (m' ((c.tc : Thread nD τ).loc main_arg0)))
              (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono
    (fun _ h c => ⟨(h c).1.trans ((val_main_v23_eq _ _ _).trans (result_eq _ _ _)), (h c).2⟩)
    (Cert.ReferenceIdeal.Value.run (F := Ideal) m' g')

end Cert.ReferenceIdeal.RefValue

end
-- ==== Proof.lean ====
/-
  The certificate: a fused kernel for  out = x_left · sigmoid(((V ∘ (xn xnᵀ)) xn) + bias),  with xn the right half of
  the input normalised row by row, against its plain reference, over the extended reals.

  Both programs build xn and the left half by the same host operations. The reference then forms all 4096 × 4096
  similarities of a batch, weights them, multiplies by xn, adds the bias, applies 1/(1 + e^(−·)) and multiplies by the
  left half. The kernel walks a 4 × 8 × 8 grid (batch, query block, key block): at each point it adds to an
  accumulator the 512 × 512 tile of weighted similarities times the tile of key rows, having zeroed the accumulator at
  key block 0, and at key block 7 stores the left block times the logistic of accumulator plus bias.

  Index by index both are  x_left[b,q,d] · logistic(∑ k, (V[q,k] · ∑ e, xn[b,q,e]·xn[b,k,e]) · xn[b,k,d] + bias[d]):
  the kernel's sum over the keys is the same sum taken eight blocks of 512 at a time from zero, and addition of
  extended reals is associative with zero neutral, so no finiteness of the inputs is used for the value; the matrix
  unit's product into a zero accumulator is the plain sum, the format changes are the identity, and the logistic is
  the reference's quotient by definition. The three frames: both kernels' by the region's run on proof data that
  carries the accumulator from point to point (the normalised array is read through two windows, each holding half
  of it), the reference's by its run read back. The idealization rewrote nothing, so `preserves` is trivial.
-/
import proofs.«164405_j84679575208503_1_alg».proof.Defs
import proofs.«164405_j84679575208503_1_alg».proof.Proof.K.Claims
import proofs.«164405_j84679575208503_1_alg».proof.Proof.KI.Result
import proofs.«164405_j84679575208503_1_alg».proof.Proof.Ref.Value
import proofs.«164405_j84679575208503_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Hand.frame m ρ

theorem frame_kernelIdeal [Cert.KernelIdeal.Facts] [Cert.Pre_finite_inputs.Facts] : Cert.frame_KernelIdeal :=
  fun m ρ _ => Cert.KernelIdeal.Hand.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both runs end with the specification's result of those arguments: the
    two sides' left halves and normalised right halves are the same host operations of the same array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.resultOf m c, Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
